-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S11440x11440 : Shape := ⟨2, ![11440, 11440]⟩
abbrev S11440 : Shape := ⟨1, ![11440]⟩
abbrev S_ : Shape := ⟨0, ![]⟩

class Facts : Prop where
  bcast_S_S11440x11440 : S_.BroadcastsInDim S11440x11440 (![] : Fin 0 → Fin S11440x11440.rank)
  reducesTo_S11440x11440_S_d0_1 : S11440x11440.ReducesTo [0, 1] S_
  h_S_ : 0 < S_.numel

variable [Facts]

def fn {F : FTy → Type} [FloatOps F] (main_arg0 : FVec F S11440x11440 .f32) (main_arg1 : IVec S11440 32) : IVec S_ 1 :=
  let main_v0 : FVec F S11440x11440 .f32 := Host.absf main_arg0
  let main_cst : FVec F S_ .f32 := constant S_ .f32 0x7F800000#32
  let main_v1 : FVec F S11440x11440 .f32 := broadcastInDim S11440x11440 ![] bcast_S_S11440x11440 main_cst
  let main_v2 : IVec S11440x11440 1 := cmpf .olt main_v0 main_v1
  let main_c : IVec S_ 1 := constantI S_ 1 1#1
  let main_v3 : IVec S_ 1 := (fun x v => Host.reduce IntOp.andi x v reducesTo_S11440x11440_S_d0_1 h_S_) main_v2 main_c
  main_v3
-- ==== Kernel.lean ====
abbrev S11440x11440 : Shape := ⟨2, ![11440, 11440]⟩
abbrev S11440 : Shape := ⟨1, ![11440]⟩
abbrev S_ : Shape := ⟨0, ![]⟩
abbrev S11520x11520 : Shape := ⟨2, ![11520, 11520]⟩
abbrev S11520 : Shape := ⟨1, ![11520]⟩
abbrev S11520x1 : Shape := ⟨2, ![11520, 1]⟩
abbrev S1x11520 : Shape := ⟨2, ![1, 11520]⟩
abbrev S1280x1280 : Shape := ⟨2, ![1280, 1280]⟩
abbrev S1280x1 : Shape := ⟨2, ![1280, 1]⟩
abbrev S1x1280 : Shape := ⟨2, ![1, 1280]⟩

abbrev nBuf : Space → Nat
  | .hbm => 12
  | .vmem => 8
  | .smem => 0
  | _ => 0

abbrev bufTy : (tb : Table) → Fin (tcTables nBuf tb) → BufTy
  | .hbm, ⟨0, _⟩ => ⟨S11440x11440, .f32⟩
  | .hbm, ⟨1, _⟩ => ⟨S11440, .i32⟩
  | .hbm, ⟨2, _⟩ => ⟨S_, .i32⟩
  | .hbm, ⟨3, _⟩ => ⟨S_, .f32⟩
  | .hbm, ⟨4, _⟩ => ⟨S11520x11520, .f32⟩
  | .hbm, ⟨5, _⟩ => ⟨S_, .i32⟩
  | .hbm, ⟨6, _⟩ => ⟨S_, .i32⟩
  | .hbm, ⟨7, _⟩ => ⟨S11520, .i32⟩
  | .hbm, ⟨8, _⟩ => ⟨S11520x1, .i32⟩
  | .hbm, ⟨9, _⟩ => ⟨S1x11520, .i32⟩
  | .hbm, ⟨10, _⟩ => ⟨S11520x11520, .f32⟩
  | .hbm, ⟨11, _⟩ => ⟨S11440x11440, .f32⟩
  | .local _ .vmem, ⟨0, _⟩ => ⟨S1280x1280, .f32⟩
  | .local _ .vmem, ⟨1, _⟩ => ⟨S1280x1280, .f32⟩
  | .local _ .vmem, ⟨2, _⟩ => ⟨S1280x1, .i32⟩
  | .local _ .vmem, ⟨3, _⟩ => ⟨S1280x1, .i32⟩
  | .local _ .vmem, ⟨4, _⟩ => ⟨S1x1280, .i32⟩
  | .local _ .vmem, ⟨5, _⟩ => ⟨S1x1280, .i32⟩
  | .local _ .vmem, ⟨6, _⟩ => ⟨S1280x1280, .f32⟩
  | .local _ .vmem, ⟨7, _⟩ => ⟨S1280x1280, .f32⟩
  | _, _ => ⟨S11440x11440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1280 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S11440x11440_S11520x11520_0800_0800 : S11440x11440.Pads (![0, 0] : Fin 2 → Nat) ![80, 80] ![0, 0] S11520x11520
  h_S_ : 0 < S_.numel
  pads_S11440_S11520_0800 : S11440.Pads (![0] : Fin 1 → Nat) ![80] ![0] S11520
  shapeCasts_S11520_S11520x1 : S11520.ShapeCasts S11520x1
  shapeCasts_S11520_S1x11520 : S11520.ShapeCasts S1x11520
  inb_S1280x1_S1280x1_0_0 : ∀ a, (![0, 0] : Fin 2 → Nat) a + S1280x1.size a ≤ S1280x1.size a
  h_S1280x1 : 0 < S1280x1.numel
  shapeCasts_S1280x1_S1280x1 : S1280x1.ShapeCasts S1280x1
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1280x1_S1280x1280 : S1280x1.Broadcasts S1280x1280
  broadcasts_S1x1280_S1280x1280 : S1x1280.Broadcasts S1280x1280
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  slices_S11520x11520_S11440x11440_0_0 : S11520x11520.Slices ![0, 0] S11440x11440
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x1280.size a ≤ S11520x11520.size a
  hwx0_0 : ∀ i : grid0.Coords, EltTy.bits .f32 = 32 ∨ (Rect.block (s := S11520x11520) S1280x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1.size a ≤ S11520x1.size a
  hwx0_1 : ∀ i : grid0.Coords, EltTy.bits .i32 = 32 ∨ (Rect.block (s := S11520x1) S1280x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x11520.size a
  hwx0_2 : ∀ i : grid0.Coords, EltTy.bits .i32 = 32 ∨ (Rect.block (s := S1x11520) S1x1280.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x1280.size a ≤ S11520x11520.size a
  hwx0_3 : ∀ i : grid0.Coords, EltTy.bits .f32 = 32 ∨ (Rect.block (s := S11520x11520) S1280x1280.size (cc0_transform_3 i) (hinb0_3 i)).WholeWords (EltTy.packing .f32)

variable [Facts₀]

abbrev win0_0 : Pipeline.Window sig grid0 :=
  Pipeline.Window.ofSpec (Memref.whole main_v0) S1280x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1280x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S11440x11440 : Shape := ⟨2, ![11440, 11440]⟩
abbrev S11440 : Shape := ⟨1, ![11440]⟩
abbrev S11440x1 : Shape := ⟨2, ![11440, 1]⟩
abbrev S1x11440 : Shape := ⟨2, ![1, 11440]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S11440x11440, .f32⟩
  | .hbm, ⟨1, _⟩ => ⟨S11440, .i32⟩
  | .hbm, ⟨2, _⟩ => ⟨S11440x1, .i32⟩
  | .hbm, ⟨3, _⟩ => ⟨S1x11440, .i32⟩
  | .hbm, ⟨4, _⟩ => ⟨S11440x11440, .i32⟩
  | .hbm, ⟨5, _⟩ => ⟨S11440x11440, .i32⟩
  | .hbm, ⟨6, _⟩ => ⟨S11440x11440, .i1⟩
  | .hbm, ⟨7, _⟩ => ⟨S_, .f32⟩
  | .hbm, ⟨8, _⟩ => ⟨S11440x11440, .f32⟩
  | .hbm, ⟨9, _⟩ => ⟨S11440x11440, .f32⟩
  | _, _ => ⟨S11440x11440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S11440_S11440x1_0 : S11440.BroadcastsInDim S11440x1 (![0] : Fin 1 → Fin S11440x1.rank)
  bcast_S11440_S1x11440_1 : S11440.BroadcastsInDim S1x11440 (![1] : Fin 1 → Fin S1x11440.rank)
  bcast_S11440x1_S11440x11440_0_1 : S11440x1.BroadcastsInDim S11440x11440 (![0, 1] : Fin 2 → Fin S11440x11440.rank)
  bcast_S1x11440_S11440x11440_0_1 : S1x11440.BroadcastsInDim S11440x11440 (![0, 1] : Fin 2 → Fin S11440x11440.rank)
  bcast_S_S11440x11440 : S_.BroadcastsInDim S11440x11440 (![] : Fin 0 → Fin S11440x11440.rank)

variable [Facts₀]

class Facts : Prop extends Facts₀ where

variable [Facts]
-- ==== Proof.Spec.lean ====
/-
  The function both programs compute.  The input is a square array `rho` of extended reals over
  11440 × 11440 indices and a vector `g` of 11440 integer labels (one per row, and the same one per column).
  The result keeps `rho i` where the label of `i`'s row equals the label of `i`'s column, and is the float
  zero elsewhere.  No arithmetic is done on the entries: the result at an index is one entry of `rho` or the
  zero word's value, so no law of the extended reals (and no finiteness) is needed anywhere.

  The kernel computes the same selection on arrays padded to 11520 × 11520 (rows and columns 11440‥11519 added:
  `rho` padded with a converted zero, the labels with −1), the row labels as a column [11520, 1] and the column
  labels as a row [1, 11520], and then cuts the leading 11440 × 11440 corner out.  `maskedPad` is that padded
  selection as one function of the three arrays the kernel reads.
-/
import Idealize.ShloMosaic.PureOps.Ideal
import Idealize.ShloMosaic.Lib.ValueIdx
import Idealize.ShloMosaic.Lib.Pipeline.Value

noncomputable section

namespace Cert.GroupMask

open Idealize.ShloMosaic Idealize.ShloMosaic.ValueIdx

variable {F : FTy → Type} [FloatOps F]

/-- Keep `rho i` where row `i 0` and column `i 1` carry the same label; the zero word's value elsewhere. -/
def masked (rho : (⟨2, ![11440, 11440]⟩ : Shape).Idx → Elt F .f32) (g : (⟨1, ![11440]⟩ : Shape).Idx → BitVec 32) :
    (⟨2, ![11440, 11440]⟩ : Shape).Idx → Elt F .f32 :=
  fun i => Scalar.select (IntOp.cmpi .eq (g (ix1 (i 0))) (g (ix1 (i 1)))) (rho i) (FloatOps.ofBits .f32 0x00000000#32)

/-- The same selection on the padded arrays: `R` the padded square, `A` the row labels as a column, `B` the column
    labels as a row. -/
def maskedPad (R : (⟨2, ![11520, 11520]⟩ : Shape).Idx → Elt F .f32) (A : (⟨2, ![11520, 1]⟩ : Shape).Idx → BitVec 32)
    (B : (⟨2, ![1, 11520]⟩ : Shape).Idx → BitVec 32) : (⟨2, ![11520, 11520]⟩ : Shape).Idx → Elt F .f32 :=
  fun i => Scalar.select (IntOp.cmpi .eq (A (ix2 (i 0) (0 : Fin 1))) (B (ix2 (0 : Fin 1) (i 1)))) (R i) (FloatOps.ofBits .f32 0x00000000#32)

/-- The padded selection at an index of the leading corner is the selection itself, once the three padded arrays
    are the unpadded ones there: `R` is `rho` on the corner, `A`'s entry of row `p` and `B`'s entry of column `q`
    are `g`'s entries `p` and `q`. -/
theorem maskedPad_corner (R : (⟨2, ![11520, 11520]⟩ : Shape).Idx → Elt F .f32) (A : (⟨2, ![11520, 1]⟩ : Shape).Idx → BitVec 32)
    (B : (⟨2, ![1, 11520]⟩ : Shape).Idx → BitVec 32)
    (rho : (⟨2, ![11440, 11440]⟩ : Shape).Idx → Elt F .f32) (g : (⟨1, ![11440]⟩ : Shape).Idx → BitVec 32)
    (p q : Fin 11440) (P Q : Fin 11520) (hP : P.val = p.val) (hQ : Q.val = q.val)
    (hR : R (ix2 P Q) = rho (ix2 p q)) (hA : A (ix2 P (0 : Fin 1)) = g (ix1 p)) (hB : B (ix2 (0 : Fin 1) Q) = g (ix1 q)) :
    maskedPad R A B (ix2 P Q) = masked rho g (ix2 p q) := by
  show Scalar.select (IntOp.cmpi .eq (A (ix2 P (0 : Fin 1))) (B (ix2 (0 : Fin 1) Q))) (R (ix2 P Q)) _
    = Scalar.select (IntOp.cmpi .eq (g (ix1 p)) (g (ix1 q))) (rho (ix2 p q)) _
  rw [hR, hA, hB]

end Cert.GroupMask

end
-- ==== Proof.RefSide.lean ====
/-
  The reference's result is the selection `masked`: its two broadcasts of the labels (to a column, to a row, then
  both to the square) read at an index `i` are the label of row `i 0` and the label of column `i 1`; its compare and
  select are elementwise; its broadcast scalar constant is the zero word's value at every index.
-/
import proofs.«154988_j50216757625014_1_alg».proof.Proof.Gen.ReferenceIdeal.Read
import proofs.«154988_j50216757625014_1_alg».proof.Proof.Spec

noncomputable section

namespace Cert.GroupMask.Ref

open Cert.ReferenceIdeal Cert.ReferenceIdeal.Read Idealize.ShloMosaic Idealize.ShloMosaic.ValueIdx

variable {F : FTy → Type} [FloatOps F]

/-- Row label: the column broadcast, then the square broadcast, read at `i` is the label vector at `i 0`. -/
theorem row_idx (i : S11440x11440.Idx) : idx_main_v0 (idx_main_v2 i) = ix1 (i 0) :=
  funext fun a => match a with | ⟨0, _⟩ => rfl

/-- Column label: the row broadcast, then the square broadcast, read at `i` is the label vector at `i 1`. -/
theorem col_idx (i : S11440x11440.Idx) : idx_main_v1 (idx_main_v3 i) = ix1 (i 1) :=
  funext fun a => match a with | ⟨0, _⟩ => rfl

/-- The reference's last stage is `masked` of its two arguments. -/
theorem result_eq (x0 : (⟨S11440x11440, .f32⟩ : BufTy).Contents (Elt F)) (x1 : (⟨S11440, .i32⟩ : BufTy).Contents (Elt F)) :
    val_main_v5 (F := F) x0 x1 = masked x0 x1 := by
  funext i
  rw [val_main_v5_apply, val_main_v4_apply, val_main_v2_apply, val_main_v0_apply, val_main_v3_apply, val_main_v1_apply,
    val_main_call0_v0_apply, val_main_cst_apply, row_idx, col_idx]
  rfl

end Cert.GroupMask.Ref

end
-- ==== Proof.KernelHost.lean ====
/-
  The three arrays the kernel region reads, as the host lines before it leave them, and what they hold on the
  part that matters.  The square `rho` is padded with 80 rows and 80 columns at the high end: at a row and column
  both below 11440 the padded array is `rho` there.  The label vector is padded with 80 entries at the high end and
  then reshaped twice, to a column [11520, 1] and to a row [1, 11520]; a reshape keeps the row-major position, and
  the position of entry `(p, 0)` of the column, and of entry `(0, q)` of the row, is `p`, respectively `q`: below
  11440 both are the label vector's own entries.  What the padding itself holds (rows and columns 11440‥11519) is
  never read here: the result is cut back to the corner.
-/
import proofs.«154988_j50216757625014_1_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.ValueIdx

noncomputable section

namespace Cert.GroupMask.Kern

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The two arguments as launched, at their literal types. -/
abbrev rhoArg (c : Dev nD) : S11440x11440.Idx → Elt F .f32 := m ((c : Thread nD τ).loc main_arg0)
abbrev grpArg (c : Dev nD) : S11440.Idx → BitVec 32 := m ((c : Thread nD τ).loc main_arg1)

/-- The padded square the region finds: `rho` padded at the high end of both axes with the converted zero. -/
theorem V_square (c : Dev nD) : (V m c main_v0 : S11520x11520.Idx → Elt F .f32)
    = pad S11520x11520 ![0, 0] ![80, 80] ![0, 0] (rhoArg m c) (sitofp .f32 (constantI S_ 32 0#32) : FVec F S_ .f32)
        pads_S11440x11440_S11520x11520_0800_0800 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The labels padded at the high end with −1. -/
abbrev grpPad (c : Dev nD) : S11520.Idx → BitVec 32 :=
  pad S11520 ![0] ![80] ![0] (grpArg m c) (constantI S_ 32 4294967295#32) pads_S11440_S11520_0800 h_S_

/-- The column of row labels the region finds: the padded labels reshaped to [11520, 1]. -/
theorem V_column (c : Dev nD) : (V m c main_v2 : S11520x1.Idx → BitVec 32)
    = shapeCast S11520x1 (grpPad m c) shapeCasts_S11520_S11520x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The row of column labels the region finds: the padded labels reshaped to [1, 11520]. -/
theorem V_row (c : Dev nD) : (V m c main_v3 : S1x11520.Idx → BitVec 32)
    = shapeCast S1x11520 (grpPad m c) shapeCasts_S11520_S1x11520 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- A padded label below 11440 is the label. -/
theorem grpPad_inside (c : Dev nD) (p : Fin 11440) (P : Fin 11520) (hP : P.val = p.val) :
    grpPad m c (ix1 P) = grpArg m c (ix1 p) :=
  pad_apply_of_inside _ _ _ _ _ pads_S11440_S11520_0800 h_S_ (ix1 P) (ix1 p) (fun a => match a with
    | ⟨0, _⟩ => by show P.val = 0 + p.val * (0 + 1); omega)

/-- The padded square at a row and a column below 11440 is `rho` there. -/
theorem square_inside (c : Dev nD) (p q : Fin 11440) (P Q : Fin 11520) (hP : P.val = p.val) (hQ : Q.val = q.val) :
    (V m c main_v0 : S11520x11520.Idx → Elt F .f32) (ix2 P Q) = rhoArg m c (ix2 p q) := by
  rw [V_square]
  exact pad_apply_of_inside _ _ _ _ _ pads_S11440x11440_S11520x11520_0800_0800 h_S_ (ix2 P Q) (ix2 p q) (fun a => match a with
    | ⟨0, _⟩ => by show P.val = 0 + p.val * (0 + 1); omega
    | ⟨1, _⟩ => by show Q.val = 0 + q.val * (0 + 1); omega)

/-- The column's entry of a row below 11440 is that row's label. -/
theorem column_inside (c : Dev nD) (p : Fin 11440) (P : Fin 11520) (hP : P.val = p.val) :
    (V m c main_v2 : S11520x1.Idx → BitVec 32) (ix2 P (0 : Fin 1)) = grpArg m c (ix1 p) := by
  rw [V_column]
  refine (shapeCast_apply (grpPad m c) shapeCasts_S11520_S11520x1 (ix2 P (0 : Fin 1)) (ix1 P) ?_).trans (grpPad_inside m c p P hP)
  rw [Shape.rowMajor_val_one, Shape.rowMajor_val_two]
  show P.val = P.val * 1 + 0
  omega

/-- The row's entry of a column below 11440 is that column's label. -/
theorem row_inside (c : Dev nD) (q : Fin 11440) (Q : Fin 11520) (hQ : Q.val = q.val) :
    (V m c main_v3 : S1x11520.Idx → BitVec 32) (ix2 (0 : Fin 1) Q) = grpArg m c (ix1 q) := by
  rw [V_row]
  refine (shapeCast_apply (grpPad m c) shapeCasts_S11520_S1x11520 (ix2 (0 : Fin 1) Q) (ix1 Q) ?_).trans (grpPad_inside m c q Q hQ)
  rw [Shape.rowMajor_val_one, Shape.rowMajor_val_two]
  show Q.val = 0 * 11520 + Q.val
  omega

end Cert.GroupMask.Kern

end
-- ==== Proof.KernelBody.lean ====
/-
  What the kernel body stores at one element of its 1280 × 1280 block, as a function of the three blocks it loads:
  the column block's label of the element's row and the row block's label of the element's column are compared;
  where they are equal the square block's element is kept, elsewhere the zero word's value is stored.  The two
  broadcasts (a column over the columns, a row over the rows) read at `(p, q)` are the column's entry `(p, 0)` and
  the row's entry `(0, q)`; the shape casts are between equal shapes.
-/
import proofs.«154988_j50216757625014_1_alg».proof.Proof.Gen.KernelIdeal.Skeleton
import Idealize.ShloMosaic.Lib.Pipeline.Value
import Idealize.ShloMosaic.Lib.ValueIdx
import Idealize.ShloMosaic.Lib.ValueLayout

noncomputable section

namespace Cert.GroupMask.Kern

open Cert.KernelIdeal Cert.KernelIdeal.Gen Idealize.ShloMosaic Idealize.ShloMosaic.ValueIdx

variable {F : FTy → Type} [FloatOps F]

/-- A column [a, 1] broadcast over [a, b] read at `(p, q)` is the column's entry of row `p`. -/
theorem broadcastTo_column_apply {α : Type} (v : S1280x1.Idx → α) (h : S1280x1.Broadcasts S1280x1280) (p q : Fin 1280) :
    broadcastTo S1280x1280 v h (ix2 p q) = v (ix2 p (0 : Fin 1)) := by
  refine broadcastTo_apply v h (ix2 p q) (ix2 p (0 : Fin 1)) fun ax => ?_
  match ax with
  | ⟨0, _⟩ => show p.val = if (1280 : Nat) = 1 then 0 else p.val; rw [if_neg (by decide)]
  | ⟨1, _⟩ => show 0 = if (1 : Nat) = 1 then 0 else q.val; rw [if_pos rfl]

/-- The stored value at element `(p, q)` of the block. -/
theorem payload_apply (a : Vec F S1280x1 .i32) (b : Vec F S1x1280 .i32) (x : Vec F S1280x1280 .f32) (p q : Fin 1280) :
    k0_pay1 a b x (ix2 p q)
      = Scalar.select (IntOp.cmpi .eq (a (ix2 p (0 : Fin 1))) (b (ix2 (0 : Fin 1) q))) (x (ix2 p q)) (FloatOps.ofBits .f32 0x00000000#32) := by
  unfold k0_pay1
  show Scalar.select (IntOp.cmpi .eq
        (broadcastTo S1280x1280 (shapeCast S1280x1 a shapeCasts_S1280x1_S1280x1) broadcasts_S1280x1_S1280x1280 (ix2 p q))
        (broadcastTo S1280x1280 (shapeCast S1x1280 b shapeCasts_S1x1280_S1x1280) broadcasts_S1x1280_S1280x1280 (ix2 p q)))
      (shapeCast S1280x1280 x shapeCasts_S1280x1280_S1280x1280 (ix2 p q)) _ = _
  rw [broadcastTo_column_apply, broadcastTo_1b_ab_apply, shapeCast_self, shapeCast_self, shapeCast_self]
  rfl

end Cert.GroupMask.Kern

end
-- ==== Proof.KernelBlocks.lean ====
/-
  From blocks to the array.  The grid has 9 × 9 points; point `t` works on block row `t / 9` and block column
  `t % 9` of the padded 11520 × 11520 square (blocks of 1280 × 1280), with the matching 1280 entries of the label
  column and of the label row.  What point `t` writes back is that block of ONE function of the whole arrays: the
  padded selection `maskedPad` of the padded square, the label column and the label row as the region finds them.
  The 81 blocks tile the padded square, so after the run the output array is that function everywhere.
-/
import proofs.«154988_j50216757625014_1_alg».proof.Proof.Gen.KernelIdeal.Frame
import proofs.«154988_j50216757625014_1_alg».proof.Proof.Spec
import proofs.«154988_j50216757625014_1_alg».proof.Proof.KernelBody
import Idealize.ShloMosaic.Lib.Pipeline.Value
import Idealize.ShloMosaic.Lib.ValueIdx

noncomputable section

namespace Cert.GroupMask.Kern

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-- The three arrays the region reads, at their literal types. -/
abbrev sqArr (c : Dev nD) : S11520x11520.Idx → Elt F .f32 := V m c main_v0
abbrev colArr (c : Dev nD) : S11520x1.Idx → BitVec 32 := V m c main_v2
abbrev rowArr (c : Dev nD) : S1x11520.Idx → BitVec 32 := V m c main_v3

theorem zero_off : (![0, 0] : Fin 2 → Nat) = fun _ => 0 := funext fun a => by fin_cases a <;> rfl

/-- The printed index maps, decided over the 81 points: the square's input block and the output block are the same
    block; the label column's block is the output's block row, in the column's one block column; the label row's
    block is the output's block column, in the row's one block row. -/
theorem block_index_facts : ∀ t : Fin cfg0.N,
    win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = 0
    ∧ win0_2.index t (0 : Fin 2) = 0
    ∧ win0_2.index t (1 : Fin 2) = win0_3.index t (1 : Fin 2) :=
  (by decide +kernel : ∀ t : Fin grid0.N, _)

/-- Every one of the 9 × 9 blocks is some point's output block. -/
theorem block_index_onto : ∀ (q0 q1 : Fin 9), ∃ t : Fin cfg0.N, win0_3.index t = ![q0.val, q1.val] :=
  (by decide +kernel : ∀ (q0 q1 : Fin 9), ∃ t : Fin grid0.N, win0_3.index t = ![q0.val, q1.val])

/-- One stored element is the padded selection at the array index `I` it lands on, when the three loaded elements
    are the arrays' entries at indices with `I`'s row and column: the square at `(I 0, I 1)`, the label column at row
    `I 0`, the label row at column `I 1`. -/
theorem block_elem (R : S11520x11520.Idx → Elt F .f32) (A : S11520x1.Idx → BitVec 32) (B : S1x11520.Idx → BitVec 32)
    (x : Vec F S1280x1280 .f32) (a : Vec F S1280x1 .i32) (b : Vec F S1x1280 .i32) (p q : Fin 1280)
    (I Ix : S11520x11520.Idx) (Ia : S11520x1.Idx) (Ib : S1x11520.Idx)
    (hx : x (ix2 p q) = R Ix) (ha : a (ix2 p (0 : Fin 1)) = A Ia) (hb : b (ix2 (0 : Fin 1) q) = B Ib)
    (hIx0 : (Ix 0).val = (I 0).val) (hIx1 : (Ix 1).val = (I 1).val) (hIa : (Ia 0).val = (I 0).val) (hIb : (Ib 1).val = (I 1).val) :
    k0_pay1 a b x (ix2 p q) = maskedPad R A B I := by
  have eIx : Ix = I := funext fun d => match d with | ⟨0, _⟩ => Fin.ext hIx0 | ⟨1, _⟩ => Fin.ext hIx1
  have eIa : Ia = ix2 (I 0) (0 : Fin 1) := funext fun d => match d with
    | ⟨0, _⟩ => Fin.ext hIa
    | ⟨1, _⟩ => Fin.ext (by have h1 : (Ia 1).val < 1 := (Ia 1).isLt; show (Ia 1).val = 0; omega)
  have eIb : Ib = ix2 (0 : Fin 1) (I 1) := funext fun d => match d with
    | ⟨0, _⟩ => Fin.ext (by have h1 : (Ib 0).val < 1 := (Ib 0).isLt; show (Ib 0).val = 0; omega)
    | ⟨1, _⟩ => Fin.ext hIb
  rw [payload_apply, hx, ha, hb, eIx, eIa, eIb]
  rfl

/-- WHAT POINT `t` WRITES BACK is block `t` of the padded selection of the arrays as the region finds them. -/
theorem flushed_eq (c : Dev nD) (t : Fin cfg0.N) :
    (dats m 0 c).flushed 3 t = ((cfg0.win 3).blk t).view.read (Elt F) (maskedPad (sqArr m c) (colArr m c) (rowArr m c)) := by
  show (cfg0.win 3).cut (grid0.coords t) ((dats m 0 c).after 3 t) = _
  rw [after0_3]
  unfold out0_3
  rw [View.canon_unit_zero zero_off]
  simp only [View.ld_unit_zero (S := S1280x1280) zero_off, View.ld_unit_zero (S := S1280x1) zero_off, View.ld_unit_zero (S := S1x1280) zero_off]
  obtain ⟨e0, e1, e2, e3, e4, e5⟩ := block_index_facts t
  funext j
  have hp : (j 0).val < 1280 := (j 0).isLt
  have hq : (j 1).val < 1280 := (j 1).isLt
  have hj : (cfg0.win 3).xinj (grid0.coords t) j = ix2 (⟨(j 0).val, hp⟩ : Fin 1280) (⟨(j 1).val, hq⟩ : Fin 1280) :=
    funext fun a => match a with | ⟨0, _⟩ => rfl | ⟨1, _⟩ => rfl
  show k0_pay1 (iblk m c 1 t) (iblk m c 2 t) (iblk m c 0 t) ((cfg0.win 3).xinj (grid0.coords t) j)
    = maskedPad (sqArr m c) (colArr m c) (rowArr m c) (((cfg0.win 3).blk t).view.emb j)
  refine (congrArg (k0_pay1 (iblk m c 1 t) (iblk m c 2 t) (iblk m c 0 t)) hj).trans ?_
  refine block_elem (sqArr m c) (colArr m c) (rowArr m c) (iblk m c 0 t) (iblk m c 1 t) (iblk m c 2 t) ⟨(j 0).val, hp⟩ ⟨(j 1).val, hq⟩
    (((cfg0.win 3).blk t).view.emb j)
    (((cfg0.win 0).blk t).view.emb (ix2 (⟨(j 0).val, hp⟩ : Fin 1280) (⟨(j 1).val, hq⟩ : Fin 1280)))
    (((cfg0.win 1).blk t).view.emb (ix2 (⟨(j 0).val, hp⟩ : Fin 1280) (0 : Fin 1)))
    (((cfg0.win 2).blk t).view.emb (ix2 (0 : Fin 1) (⟨(j 1).val, hq⟩ : Fin 1280)))
    rfl rfl rfl ?_ ?_ ?_ ?_
  · show win0_0.index t (0 : Fin 2) * 1280 + 1 * (j 0).val = win0_3.index t (0 : Fin 2) * 1280 + 1 * (j 0).val
    omega
  · show win0_0.index t (1 : Fin 2) * 1280 + 1 * (j 1).val = win0_3.index t (1 : Fin 2) * 1280 + 1 * (j 1).val
    omega
  · show win0_1.index t (0 : Fin 2) * 1280 + 1 * (j 0).val = win0_3.index t (0 : Fin 2) * 1280 + 1 * (j 0).val
    omega
  · show win0_2.index t (1 : Fin 2) * 1280 + 1 * (j 1).val = win0_3.index t (1 : Fin 2) * 1280 + 1 * (j 1).val
    omega

/-- An index of the padded square is in point `t`'s block iff each coordinate is in the block's range on its axis. -/
theorem mem_block (t : Fin cfg0.N) (i : S11520x11520.Idx) :
    i ∈ ((cfg0.win 3).blk t).view.set ↔ ∀ a : Fin 2, win0_3.index t a * S1280x1280.size a ≤ (i a).val
      ∧ (i a).val < win0_3.index t a * S1280x1280.size a + S1280x1280.size a := by
  show i ∈ ((View.whole main_v4).slice (win0_3.rect t)).set ↔ _
  rw [View.set_slice_whole, Rect.mem_set_unit]
  exact Iff.rfl

/-- Every index of the padded square lies in some point's block: row `r` and column `s` are in block
    `(r / 1280, s / 1280)`. -/
theorem covered (i : S11520x11520.Idx) :
    ∃ t : Fin cfg0.N, (cfg0.win 3).flush t = true ∧ i ∈ ((cfg0.win 3).blk t).view.set := by
  have hi0 : (i 0).val < 11520 := (i 0).isLt
  have hi1 : (i 1).val < 11520 := (i 1).isLt
  obtain ⟨t, ht⟩ := block_index_onto ⟨(i 0).val / 1280, by omega⟩ ⟨(i 1).val / 1280, by omega⟩
  have q0 : win0_3.index t (0 : Fin 2) = (i 0).val / 1280 := congrFun ht 0
  have q1 : win0_3.index t (1 : Fin 2) = (i 1).val / 1280 := congrFun ht 1
  refine ⟨t, flush0_3 t, ?_⟩
  rw [mem_block]
  intro a
  match a with
  | ⟨0, _⟩ =>
    show win0_3.index t (0 : Fin 2) * 1280 ≤ (i 0).val ∧ (i 0).val < win0_3.index t (0 : Fin 2) * 1280 + 1280
    omega
  | ⟨1, _⟩ =>
    show win0_3.index t (1 : Fin 2) * 1280 ≤ (i 1).val ∧ (i 1).val < win0_3.index t (1 : Fin 2) * 1280 + 1280
    omega

/-- THE OUTPUT ARRAY after the run is the padded selection of the arrays as the region finds them. -/
theorem final (c : Dev nD) :
    (dats m 0 c).arrAt 3 cfg0.N = maskedPad (sqArr m c) (colArr m c) (rowArr m c) :=
  (dats m 0 c).arrAt_eq_of_cover 3 _ (fun t _ => flushed_eq m c t) covered

end Cert.GroupMask.Kern

end
-- ==== Proof.KernelRun.lean ====
/-
  The kernel program's result.  After the region the host cuts the leading 11440 × 11440 corner out of the
  11520 × 11520 output array.  That array is the padded selection (the blocks tile it); an index `(p, q)` of the corner
  is the same index of the padded square, where the padded square is `rho`, the label column's entry of row `p` is
  label `p` and the label row's entry of column `q` is label `q`.  So the program's result is `masked rho g`, and the
  frame run re-posted with that equation is the kernel's run with its result named.
-/
import proofs.«154988_j50216757625014_1_alg».proof.Proof.Gen.KernelIdeal.Frame
import proofs.«154988_j50216757625014_1_alg».proof.Proof.Spec
import proofs.«154988_j50216757625014_1_alg».proof.Proof.KernelHost
import proofs.«154988_j50216757625014_1_alg».proof.Proof.KernelBlocks
import Idealize.ShloMosaic.Lib.Pipeline.Value
import Idealize.ShloMosaic.Lib.StableHlo.Run
import Idealize.ShloMosaic.Lib.ValueIdx

noncomputable section

namespace Cert.GroupMask.Kern

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- The host line after the region leaves in the result buffer the selection of the two arguments as launched. -/
theorem result_eq (c : Dev nD) :
    (Pipeline.afterTail₀ cfgs (dats m) 0 (V0 m) [hostOps1] c main_v5 : S11440x11440.Idx → Elt F .f32)
      = masked (rhoArg m c) (grpArg m c) := by
  unfold Pipeline.afterTail₀
  show StableHlo.after hostOps1 _ (Proc.devRef .tc main_v5) = _
  after_results
  have hw : (Pipeline.withArrays (cfgs 0).spec c (V0 m c) (fun w => (dats m 0 c).arrAt w (cfgs 0).N) (Proc.devRef .tc main_v4)
        : S11520x11520.Idx → Elt F .f32) = maskedPad (sqArr m c) (colArr m c) (rowArr m c) :=
    (Pipeline.withArrays_arr spec0 launch0.win.arr_inj c _ _ 3).trans (final m c)
  rw [hw]
  funext j
  obtain ⟨p, q, rfl⟩ : ∃ (p q : Fin 11440), j = ix2 p q := ⟨j 0, j 1, eq_ix2 j⟩
  have hP : p.val < 11520 := by have := p.isLt; omega
  have hQ : q.val < 11520 := by have := q.isLt; omega
  refine (extractStridedSlice_apply ![0, 0] _ slices_S11520x11520_S11440x11440_0_0 (ix2 p q)
    (ix2 (⟨p.val, hP⟩ : Fin 11520) (⟨q.val, hQ⟩ : Fin 11520)) (fun a => match a with
      | ⟨0, _⟩ => by show p.val = 0 + p.val; omega
      | ⟨1, _⟩ => by show q.val = 0 + q.val; omega)).trans ?_
  exact maskedPad_corner _ _ _ _ _ p q ⟨p.val, hP⟩ ⟨q.val, hQ⟩ rfl rfl
    (square_inside m c p q _ _ rfl rfl) (column_inside m c p _ rfl) (row_inside m c q _ rfl)

/-- The kernel program's run with its result named: every weakly fair execution ends with the result buffer at
    the selection of the arguments, the arguments unchanged. -/
theorem run : θ_run defs (onTc (τ := τ) (main (F := F))) ⟨m, fun _ => 0, ρ⟩ fun r => ∀ c : Dev nD,
      r.2.mem ((c : Thread nD τ).loc main_v5) = masked (rhoArg m c) (grpArg m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.GroupMask.Kern

end
-- ==== Proof.lean ====
/-
  The certificate's claims.  Both idealized programs return, for a square array `rho` and a label vector `g`, the
  array that keeps `rho` at the indices whose row and column carry the same label and holds the float zero elsewhere
  (Proof/Spec.lean, `masked`).  The reference computes it directly (Proof/RefSide.lean).  The kernel pads both inputs
  up to a multiple of its 1280 tile, computes the same selection block by block over a 9 × 9 grid, and cuts the
  padding off again; the padded rows and columns are never part of the result (Proof/KernelHost.lean,
  Proof/KernelBody.lean, Proof/KernelBlocks.lean, Proof/KernelRun.lean).  The result's entries are entries of `rho`
  or the zero, selected by integer comparisons, so the two results are equal as extended reals with no law of
  arithmetic involved and the precondition (finite entries) is not used.

  The two kernel frames are the generated frames; the reference's frame is its generated run with the result
  dropped; the idealization rewrote nothing, so the `preserves` conjunct is `True`.
-/
import proofs.«154988_j50216757625014_1_alg».proof.Defs
import proofs.«154988_j50216757625014_1_alg».proof.Proof.Gen.Kernel
import proofs.«154988_j50216757625014_1_alg».proof.Proof.Gen.Kernel.Frame
import proofs.«154988_j50216757625014_1_alg».proof.Proof.Gen.KernelIdeal
import proofs.«154988_j50216757625014_1_alg».proof.Proof.Gen.KernelIdeal.Frame
import proofs.«154988_j50216757625014_1_alg».proof.Proof.Gen.ReferenceIdeal
import proofs.«154988_j50216757625014_1_alg».proof.Proof.Gen.ReferenceIdeal.Run
import proofs.«154988_j50216757625014_1_alg».proof.Proof.Gen.ReferenceIdeal.Read
import proofs.«154988_j50216757625014_1_alg».proof.Proof.Gen.Pre_finite_inputs
import proofs.«154988_j50216757625014_1_alg».proof.Proof.Spec
import proofs.«154988_j50216757625014_1_alg».proof.Proof.RefSide
import proofs.«154988_j50216757625014_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result buffer at `masked` of the (agreeing) arguments. -/
theorem algebraic : Cert.algebraic_KernelIdeal_ReferenceIdeal := by
  intro m ρ m' ρ' _ hagree
  refine ⟨_, Cert.GroupMask.Kern.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.GroupMask.Ref.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
